-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x256 : Shape := ⟨2, ![320000, 256]⟩
abbrev S320000x128 : Shape := ⟨2, ![320000, 128]⟩
abbrev S64x128 : Shape := ⟨2, ![64, 128]⟩
abbrev S320000 : Shape := ⟨1, ![320000]⟩
abbrev S768x256 : Shape := ⟨2, ![768, 256]⟩
abbrev S256 : Shape := ⟨1, ![256]⟩
abbrev S_ : Shape := ⟨0, ![]⟩

class Facts : Prop where
  bcast_S_S320000x256 : S_.BroadcastsInDim S320000x256 (![] : Fin 0 → Fin S320000x256.rank)
  reducesTo_S320000x256_S_d0_1 : S320000x256.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S64x128 : S_.BroadcastsInDim S64x128 (![] : Fin 0 → Fin S64x128.rank)
  reducesTo_S64x128_S_d0_1 : S64x128.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S320000 : S_.BroadcastsInDim S320000 (![] : Fin 0 → Fin S320000.rank)
  reducesTo_S320000_S_d0 : S320000.ReducesTo [0] S_

variable [Facts]

def fn_part2 {F : FTy → Type} [FloatOps F] (main_arg4 : IVec S320000 32) (main_v32 : IVec S_ 1) (main_c_12 : IVec S_ 32) : IVec S_ 1 :=
  let main_v33 : IVec S320000 32 := broadcastInDim S320000 ![] bcast_S_S320000 main_c_12
  let main_v34 : IVec S320000 1 := cmpi .slt main_arg4 main_v33
  let main_c_13 : IVec S_ 1 := constantI S_ 1 1#1
  let main_v35 : IVec S_ 1 := (fun x v => Host.reduce IntOp.andi x v reducesTo_S320000_S_d0 h_S_) main_v34 main_c_13
  let main_v36 : IVec S_ 1 := andi main_v32 main_v35
  main_v36

def fn_part1 {F : FTy → Type} [FloatOps F] (main_arg4 : IVec S320000 32) (main_arg5 : FVec F S768x256 .f32) (main_arg6 : FVec F S256 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S768x256 .f32 := Host.absf main_arg5
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S320000 32 := broadcastInDim S320000 ![] bcast_S_S320000 main_c_10
  let main_v30 : IVec S320000 1 := cmpi .sge main_arg4 main_v29
  let main_c_11 : IVec S_ 1 := constantI S_ 1 1#1
  let main_v31 : IVec S_ 1 := (fun x v => Host.reduce IntOp.andi x v reducesTo_S320000_S_d0 h_S_) main_v30 main_c_11
  let main_v32 : IVec S_ 1 := andi main_v28 main_v31
  let main_c_12 : IVec S_ 32 := constantI S_ 32 64#32
  fn_part2 (F := F) main_arg4 main_v32 main_c_12

def fn {F : FTy → Type} [FloatOps F] (main_arg0 : FVec F S320000x256 .f32) (main_arg1 : FVec F S320000x256 .f32) (main_arg2 : FVec F S320000x128 .f32) (main_arg3 : FVec F S64x128 .f32) (main_arg4 : IVec S320000 32) (main_arg5 : FVec F S768x256 .f32) (main_arg6 : FVec F S256 .f32) : IVec S_ 1 :=
  let main_v0 : FVec F S320000x256 .f32 := Host.absf main_arg0
  let main_cst : FVec F S_ .f32 := constant S_ .f32 0x7F800000#32
  let main_v1 : FVec F S320000x256 .f32 := broadcastInDim S320000x256 ![] bcast_S_S320000x256 main_cst
  let main_v2 : IVec S320000x256 1 := cmpf .olt main_v0 main_v1
  let main_c : IVec S_ 1 := constantI S_ 1 1#1
  let main_v3 : IVec S_ 1 := (fun x v => Host.reduce IntOp.andi x v reducesTo_S320000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S320000x128 .f32 := Host.absf main_arg2
  let main_cst_2 : FVec F S_ .f32 := constant S_ .f32 0x7F800000#32
  let main_v10 : FVec F S320000x128 .f32 := broadcastInDim S320000x128 ![] bcast_S_S320000x128 main_cst_2
  let main_v11 : IVec S320000x128 1 := cmpf .olt main_v9 main_v10
  let main_c_3 : IVec S_ 1 := constantI S_ 1 1#1
  let main_v12 : IVec S_ 1 := (fun x v => Host.reduce IntOp.andi x v reducesTo_S320000x128_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_v13 main_v16
-- ==== Kernel.lean ====
abbrev S320000x256 : Shape := ⟨2, ![320000, 256]⟩
abbrev S320000x128 : Shape := ⟨2, ![320000, 128]⟩
abbrev S64x128 : Shape := ⟨2, ![64, 128]⟩
abbrev S320000 : Shape := ⟨1, ![320000]⟩
abbrev S768x256 : Shape := ⟨2, ![768, 256]⟩
abbrev S256 : Shape := ⟨1, ![256]⟩
abbrev S128x256 : Shape := ⟨2, ![128, 256]⟩
abbrev S64x256 : Shape := ⟨2, ![64, 256]⟩
abbrev S1x256 : Shape := ⟨2, ![1, 256]⟩
abbrev S640x256 : Shape := ⟨2, ![640, 256]⟩
abbrev S50x1x6400 : Shape := ⟨3, ![50, 1, 6400]⟩
abbrev S6400x256 : Shape := ⟨2, ![6400, 256]⟩
abbrev S6400x128 : Shape := ⟨2, ![6400, 128]⟩
abbrev S1x1x6400 : Shape := ⟨3, ![1, 1, 6400]⟩
abbrev S6400 : Shape := ⟨1, ![6400]⟩
abbrev S64x6400 : Shape := ⟨2, ![64, 6400]⟩
abbrev S1x6400 : Shape := ⟨2, ![1, 6400]⟩
abbrev S256x256 : Shape := ⟨2, ![256, 256]⟩

abbrev nBuf : Space → Nat
  | .hbm => 19
  | .vmem => 12
  | .smem => 0
  | _ => 0

abbrev bufTy : (tb : Table) → Fin (tcTables nBuf tb) → BufTy
  | .hbm, ⟨0, _⟩ => ⟨S320000x256, .f32⟩
  | .hbm, ⟨1, _⟩ => ⟨S320000x256, .f32⟩
  | .hbm, ⟨2, _⟩ => ⟨S320000x128, .f32⟩
  | .hbm, ⟨3, _⟩ => ⟨S64x128, .f32⟩
  | .hbm, ⟨4, _⟩ => ⟨S320000, .i32⟩
  | .hbm, ⟨5, _⟩ => ⟨S768x256, .f32⟩
  | .hbm, ⟨6, _⟩ => ⟨S256, .f32⟩
  | .hbm, ⟨7, _⟩ => ⟨S128x256, .f32⟩
  | .hbm, ⟨8, _⟩ => ⟨S64x128, .bf16⟩
  | .hbm, ⟨9, _⟩ => ⟨S128x256, .bf16⟩
  | .hbm, ⟨10, _⟩ => ⟨S64x256, .f32⟩
  | .hbm, ⟨11, _⟩ => ⟨S1x256, .f32⟩
  | .hbm, ⟨12, _⟩ => ⟨S64x256, .f32⟩
  | .hbm, ⟨13, _⟩ => ⟨S64x256, .f32⟩
  | .hbm, ⟨14, _⟩ => ⟨S64x256, .bf16⟩
  | .hbm, ⟨15, _⟩ => ⟨S640x256, .f32⟩
  | .hbm, ⟨16, _⟩ => ⟨S640x256, .bf16⟩
  | .hbm, ⟨17, _⟩ => ⟨S50x1x6400, .i32⟩
  | .hbm, ⟨18, _⟩ => ⟨S320000x256, .f32⟩
  | .local _ .vmem, ⟨0, _⟩ => ⟨S6400x256, .f32⟩
  | .local _ .vmem, ⟨1, _⟩ => ⟨S6400x256, .f32⟩
  | .local _ .vmem, ⟨2, _⟩ => ⟨S6400x256, .f32⟩
  | .local _ .vmem, ⟨3, _⟩ => ⟨S6400x256, .f32⟩
  | .local _ .vmem, ⟨4, _⟩ => ⟨S6400x128, .f32⟩
  | .local _ .vmem, ⟨5, _⟩ => ⟨S6400x128, .f32⟩
  | .local _ .vmem, ⟨6, _⟩ => ⟨S1x1x6400, .i32⟩
  | .local _ .vmem, ⟨7, _⟩ => ⟨S1x1x6400, .i32⟩
  | .local _ .vmem, ⟨8, _⟩ => ⟨S64x256, .bf16⟩
  | .local _ .vmem, ⟨9, _⟩ => ⟨S640x256, .bf16⟩
  | .local _ .vmem, ⟨10, _⟩ => ⟨S6400x256, .f32⟩
  | .local _ .vmem, ⟨11, _⟩ => ⟨S6400x256, .f32⟩
  | _, _ => ⟨S320000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6400 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S768x256_S128x256_640_0 : S768x256.Slices ![640, 0] S128x256
  bitsLt_bf16_f32 : FTy.bits .bf16 < FTy.bits .f32
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  slices_S768x256_S640x256_0_0 : S768x256.Slices ![0, 0] S640x256
  shapeCasts_S320000_S50x1x6400 : S320000.ShapeCasts S50x1x6400
  inb_S1x1x6400_S1x1x6400_0_0_0 : ∀ a, (![0, 0, 0] : Fin 3 → Nat) a + S1x1x6400.size a ≤ S1x1x6400.size a
  h_S1x1x6400 : 0 < S1x1x6400.numel
  shapeCasts_S1x1x6400_S6400 : S1x1x6400.ShapeCasts S6400
  iota_S64x6400_d0_w32 : S64x6400.Iotas .tc 32 [0]
  shapeCasts_S6400_S1x6400 : S6400.ShapeCasts S1x6400
  broadcasts_S1x6400_S64x6400 : S1x6400.Broadcasts S64x6400
  natLt_1_32 : 1 < 32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S640x256_S640x256_0_0 : ∀ a, (![0, 0] : Fin 2 → Nat) a + S640x256.size a ≤ S640x256.size a
  h_S640x256 : 0 < S640x256.numel
  shapeCasts_S640x256_S640x256 : S640x256.ShapeCasts S640x256
  slices_S640x256_o0_0_S256x256 : S640x256.Slices ![0, 0] S256x256
  slices_S640x256_o256_0_S256x256 : S640x256.Slices ![256, 0] S256x256
  slices_S640x256_o512_0_S128x256 : S640x256.Slices ![512, 0] S128x256
  inb_S6400x256_S6400x256_0_0 : ∀ a, (![0, 0] : Fin 2 → Nat) a + S6400x256.size a ≤ S6400x256.size a
  h_S6400x256 : 0 < S6400x256.numel
  inb_S6400x128_S6400x128_0_0 : ∀ a, (![0, 0] : Fin 2 → Nat) a + S6400x128.size a ≤ S6400x128.size a
  h_S6400x128 : 0 < S6400x128.numel
  dot_S64x128_S128x256_S64x256_1_0_0_1_n_n_wf : DotDims.WF S64x128 S128x256 S64x256 [1] [0] [0] [1] [] []
  dot_S64x6400_S64x256_S6400x256_0_0_1_1_n_n_wf : DotDims.WF S64x6400 S64x256 S6400x256 [0] [0] [1] [1] [] []
  dot_S6400x256_S256x256_S6400x256_1_0_0_1_n_n_wf : DotDims.WF S6400x256 S256x256 S6400x256 [1] [0] [0] [1] [] []
  dot_S6400x128_S128x256_S6400x256_1_0_0_1_n_n_wf : DotDims.WF S6400x128 S128x256 S6400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S320000x256.size a
  hwx0_0 : ∀ i : grid0.Coords, EltTy.bits .f32 = 32 ∨ (Rect.block (s := S320000x256) S6400x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x256.size a ≤ S320000x256.size a
  hwx0_1 : ∀ i : grid0.Coords, EltTy.bits .f32 = 32 ∨ (Rect.block (s := S320000x256) S6400x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S320000x128.size a
  hwx0_2 : ∀ i : grid0.Coords, EltTy.bits .f32 = 32 ∨ (Rect.block (s := S320000x128) S6400x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x6400.size a ≤ S50x1x6400.size a
  hwx0_3 : ∀ i : grid0.Coords, EltTy.bits .i32 = 32 ∨ (Rect.block (s := S50x1x6400) S1x1x6400.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .bf16 = 32 ∨ (Rect.block (s := S64x256) S64x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x256.size a ≤ S640x256.size a
  hwx0_5 : ∀ i : grid0.Coords, EltTy.bits .bf16 = 32 ∨ (Rect.block (s := S640x256) S640x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x256.size a ≤ S320000x256.size a
  hwx0_6 : ∀ i : grid0.Coords, EltTy.bits .f32 = 32 ∨ (Rect.block (s := S320000x256) S6400x256.size (cc0_transform_6 i) (hinb0_6 i)).WholeWords (EltTy.packing .f32)

variable [Facts₀]

def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x6400_S64x256_S6400x256_0_0_1_1_n_n : DotDims S64x6400 S64x256 S6400x256 where
  lhsContracting := [0]
  rhsContracting := [0]
  lhsNonContracting := [1]
  rhsNonContracting := [1]
  lhsBatch := []
  rhsBatch := []
  wf := dot_S64x6400_S64x256_S6400x256_0_0_1_1_n_n_wf
def dot_S6400x256_S256x256_S6400x256_1_0_0_1_n_n : DotDims S6400x256 S256x256 S6400x256 where
  lhsContracting := [1]
  rhsContracting := [0]
  lhsNonContracting := [0]
  rhsNonContracting := [1]
  lhsBatch := []
  rhsBatch := []
  wf := dot_S6400x256_S256x256_S6400x256_1_0_0_1_n_n_wf
def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf

abbrev win0_0 : Pipeline.Window sig grid0 :=
  Pipeline.Window.ofSpec (Memref.whole main_arg1) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S6400x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1x6400.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S640x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S6400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S320000x256 : Shape := ⟨2, ![320000, 256]⟩
abbrev S320000x128 : Shape := ⟨2, ![320000, 128]⟩
abbrev S64x128 : Shape := ⟨2, ![64, 128]⟩
abbrev S320000 : Shape := ⟨1, ![320000]⟩
abbrev S768x256 : Shape := ⟨2, ![768, 256]⟩
abbrev S256 : Shape := ⟨1, ![256]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x768 : Shape := ⟨2, ![320000, 768]⟩
abbrev S1x256 : Shape := ⟨2, ![1, 256]⟩

abbrev nBuf : Space → Nat
  | .hbm => 38
  | .vmem => 0
  | .smem => 0
  | _ => 0

abbrev bufTy : (tb : Table) → Fin (tcTables nBuf tb) → BufTy
  | .hbm, ⟨0, _⟩ => ⟨S320000x256, .f32⟩
  | .hbm, ⟨1, _⟩ => ⟨S320000x256, .f32⟩
  | .hbm, ⟨2, _⟩ => ⟨S320000x128, .f32⟩
  | .hbm, ⟨3, _⟩ => ⟨S64x128, .f32⟩
  | .hbm, ⟨4, _⟩ => ⟨S320000, .i32⟩
  | .hbm, ⟨5, _⟩ => ⟨S768x256, .f32⟩
  | .hbm, ⟨6, _⟩ => ⟨S256, .f32⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S320000x1, .i32⟩
  | .hbm, ⟨15, _⟩ => ⟨S1, .i32⟩
  | .hbm, ⟨16, _⟩ => ⟨S_, .i32⟩
  | .hbm, ⟨17, _⟩ => ⟨S320000x1, .i32⟩
  | .hbm, ⟨18, _⟩ => ⟨S320000x1, .i1⟩
  | .hbm, ⟨19, _⟩ => ⟨S1x1, .i32⟩
  | .hbm, ⟨20, _⟩ => ⟨S320000x1, .i32⟩
  | .hbm, ⟨21, _⟩ => ⟨S320000x1, .i1⟩
  | .hbm, ⟨22, _⟩ => ⟨S320000x1, .i1⟩
  | .hbm, ⟨23, _⟩ => ⟨S_, .i1⟩
  | .hbm, ⟨24, _⟩ => ⟨S320000, .i1⟩
  | .hbm, ⟨25, _⟩ => ⟨S320000x128, .f32⟩
  | .hbm, ⟨26, _⟩ => ⟨S320000x128, .i1⟩
  | .hbm, ⟨27, _⟩ => ⟨S_, .f32⟩
  | .hbm, ⟨28, _⟩ => ⟨S320000x128, .f32⟩
  | .hbm, ⟨29, _⟩ => ⟨S320000x128, .f32⟩
  | .hbm, ⟨30, _⟩ => ⟨S320000x768, .f32⟩
  | .hbm, ⟨31, _⟩ => ⟨S320000x256, .f32⟩
  | .hbm, ⟨32, _⟩ => ⟨S1x256, .f32⟩
  | .hbm, ⟨33, _⟩ => ⟨S320000x256, .f32⟩
  | .hbm, ⟨34, _⟩ => ⟨S320000x256, .f32⟩
  | .hbm, ⟨35, _⟩ => ⟨S_, .f32⟩
  | .hbm, ⟨36, _⟩ => ⟨S320000x256, .f32⟩
  | .hbm, ⟨37, _⟩ => ⟨S320000x256, .f32⟩
  | _, _ => ⟨S320000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_call1_cst : Ref sig .tc := ⟨.hbm, 35, rfl⟩
abbrev main_call1_v0 : Ref sig .tc := ⟨.hbm, 36, rfl⟩
abbrev main_v6 : Ref sig .tc := ⟨.hbm, 37, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  concatenates_S320000x256_S320000x256_S320000x128_S320000x128_S320000x768_d1 : Shape.Concatenates [S320000x256, S320000x256, S320000x128, S320000x128] S320000x768 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  gather_S64x128_S320000x1_S320000x128_1_0_n_n_0_1_1128_wf : GatherDims.WF S64x128 S320000x1 S320000x128 [1] [0] [] [0] [] 1 ![1, 128]
  dot_S320000x768_S768x256_S320000x256_1_0_0_1_n_n_wf : DotDims.WF S320000x768 S768x256 S320000x256 [1] [0] [0] [1] [] []

variable [Facts₀]

def gather_S64x128_S320000x1_S320000x128_1_0_n_n_0_1_1128 : GatherDims S64x128 S320000x1 S320000x128 where
  offsetDims := [1]
  collapsedSliceDims := [0]
  operandBatchingDims := []
  startIndicesBatchingDims := []
  startIndexMap := [0]
  indexVectorDim := 1
  sliceSizes := ![1, 128]
  wf := gather_S64x128_S320000x1_S320000x128_1_0_n_n_0_1_1128_wf
def dot_S320000x768_S768x256_S320000x256_1_0_0_1_n_n : DotDims S320000x768 S768x256 S320000x256 where
  lhsContracting := [1]
  rhsContracting := [0]
  lhsNonContracting := [0]
  rhsNonContracting := [1]
  lhsBatch := []
  rhsBatch := []
  wf := dot_S320000x768_S768x256_S320000x256_1_0_0_1_n_n_wf

class Facts : Prop extends Facts₀ where

variable [Facts]
-- ==== Proof.Spec.lean ====
/-
  The edge model's result, written once as a function of the seven argument arrays, index by index on the extended
  reals. For edge `e` and output column `j`, with `g = batch e` the graph the edge belongs to:

    out e j = max (((∑ k<256, dest e k · W k j + ∑ k<256, src e k · W (256+k) j) + ∑ k<128, edge e k · W (512+k) j)
                    + (∑ k<128, u g k · W (640+k) j + b j)) 0

  The weight matrix's 768 rows are four bands, one per piece of the concatenated feature row [dest, src, edge, u g],
  and the bias is added to the last band's product. Both programs are brought to this form: one contracts the whole
  768-wide row at once, the other adds the bands' products and selects row `g` of a 64-row table by a one-hot sum.
-/
import Idealize.ShloMosaic.PureOps.Ideal
import Idealize.ShloMosaic.Lib.ValueIdx

noncomputable section

namespace Cert.Spec

open Idealize.ShloMosaic Idealize.ShloMosaic.ValueIdx

/-- The graph of edge `e` as a row of the 64-row table: the index word read unsigned, folded into the table's range
    (the fold is the identity on the words the precondition admits, those below 64). -/
def graphOf (batch : IVec ⟨1, ![320000]⟩ 32) (e : Fin 320000) : Fin 64 :=
  ⟨(batch (ix1 e)).toNat % 64, Nat.mod_lt _ (by decide)⟩

/-- The result at edge `e`, column `j`. -/
def edgeOutAt (dest src : FVec Ideal ⟨2, ![320000, 256]⟩ .f32) (edge : FVec Ideal ⟨2, ![320000, 128]⟩ .f32)
    (u : FVec Ideal ⟨2, ![64, 128]⟩ .f32) (batch : IVec ⟨1, ![320000]⟩ 32) (W : FVec Ideal ⟨2, ![768, 256]⟩ .f32)
    (b : FVec Ideal ⟨1, ![256]⟩ .f32) (e : Fin 320000) (j : Fin 256) : EReal :=
  max ((((∑ k : Fin 256, dest (ix2 e k) * W (ix2 (⟨k.val, by omega⟩ : Fin 768) j))
        + (∑ k : Fin 256, src (ix2 e k) * W (ix2 (⟨256 + k.val, by omega⟩ : Fin 768) j)))
        + (∑ k : Fin 128, edge (ix2 e k) * W (ix2 (⟨512 + k.val, by omega⟩ : Fin 768) j)))
      + ((∑ k : Fin 128, u (ix2 (graphOf batch e) k) * W (ix2 (⟨640 + k.val, by omega⟩ : Fin 768) j)) + b (ix1 j))) 0

/-- The whole result array. -/
def edgeOut (dest src : FVec Ideal ⟨2, ![320000, 256]⟩ .f32) (edge : FVec Ideal ⟨2, ![320000, 128]⟩ .f32)
    (u : FVec Ideal ⟨2, ![64, 128]⟩ .f32) (batch : IVec ⟨1, ![320000]⟩ 32) (W : FVec Ideal ⟨2, ![768, 256]⟩ .f32)
    (b : FVec Ideal ⟨1, ![256]⟩ .f32) : FVec Ideal ⟨2, ![320000, 256]⟩ .f32 :=
  fun i => edgeOutAt dest src edge u batch W b (i 0) (i 1)

/-- An array that agrees with the result at every pair of coordinates is the result. -/
theorem eq_edgeOut_of_at (dest src : FVec Ideal ⟨2, ![320000, 256]⟩ .f32) (edge : FVec Ideal ⟨2, ![320000, 128]⟩ .f32)
    (u : FVec Ideal ⟨2, ![64, 128]⟩ .f32) (batch : IVec ⟨1, ![320000]⟩ 32) (W : FVec Ideal ⟨2, ![768, 256]⟩ .f32)
    (b : FVec Ideal ⟨1, ![256]⟩ .f32) (X : FVec Ideal ⟨2, ![320000, 256]⟩ .f32)
    (h : ∀ (e : Fin 320000) (j : Fin 256), X (ix2 e j) = edgeOutAt dest src edge u batch W b e j) :
    X = edgeOut dest src edge u batch W b := by
  funext i
  rw [eq_ix2 i]
  exact h (i 0) (i 1)

end Cert.Spec

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.KernelPayload.lean ====
/-
  The kernel body's arithmetic at one entry (r, j) of a 6400 × 256 output block, as a function of the six loaded
  blocks: the 6400 index words, the 64 × 256 table, the 640 × 256 weight block (rows 0–255, 256–511, 512–639 the
  bands for dest, src and edge_attr) and the dest, src, edge_attr blocks. The body compares each index word with
  each of the 64 graph numbers, which gives a 64 × 6400 matrix of ones and zeros, contracts that matrix with the
  table over the graphs, adds the three block products, and takes the maximum with zero. At the ideal values every
  product is the plain sum over the contracted coordinate and the changes of float format are the identity.
-/
import proofs.«409750_j35012573397767_4_alg».proof.Proof.Gen.KernelIdeal.Skeleton
import proofs.«409750_j35012573397767_4_alg».proof.Proof.LibDotSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Lib

/-- The indicator of "the index word `w` is graph number `g`" as the kernel computes it: the one-bit comparison,
    widened to 32 bits and converted to a float, so 1 where they are equal and 0 where not. -/
def hot (w : BitVec 32) (g : Fin 64) : EReal :=
  FloatOps.sitofp (F := Ideal) .f32 ((IntOp.cmpi .eq (BitVec.ofNat 32 g.val) w).setWidth 32)

/-- Entry (g, r) of the comparison matrix: graph number g against the r-th index word of the block. The word reaches
    row g through two reshapes of the [1, 1, 6400] block and a broadcast down the 64 rows. -/
theorem hot_entry (x3 : IVec S1x1x6400 32) (h1 : S1x1x6400.ShapeCasts S6400) (h2 : S6400.ShapeCasts S1x6400)
    (h3 : S1x6400.Broadcasts S64x6400) (hi : S64x6400.Iotas .tc 32 [0]) (h4 : 1 < 32) (h5 : FTy.bf16.bits < FTy.f32.bits)
    (g : Fin 64) (r : Fin 6400) :
    (truncf .bf16 (sitofp (F := Ideal) .f32 (extui 32 (cmpi .eq (iota .tc S64x6400 32 [0] hi)
        (broadcastTo S64x6400 (shapeCast S1x6400 (shapeCast S6400 x3 h1) h2) h3)) h4)) h5) (ix2 g r)
      = hot (x3 (ix3 (0 : Fin 1) (0 : Fin 1) r)) g := by
  have e1 : broadcastTo S64x6400 (shapeCast S1x6400 (shapeCast S6400 x3 h1) h2) h3 (ix2 g r)
      = x3 (ix3 (0 : Fin 1) (0 : Fin 1) r) := by
    rw [broadcastTo_apply _ h3 (ix2 g r) (ix2 (0 : Fin 1) r) (by
      intro a
      match a with
      | ⟨0, _⟩ => rfl
      | ⟨1, _⟩ => rfl)]
    rw [shapeCast_apply _ h2 (ix2 (0 : Fin 1) r) (ix1 r) (by
      rw [Shape.rowMajor_val_one, Shape.rowMajor_val_two]; show r.val = 0 * 6400 + r.val; omega)]
    rw [shapeCast_apply _ h1 (ix1 r) (ix3 (0 : Fin 1) (0 : Fin 1) r) (by
      rw [Shape.rowMajor_val_three, Shape.rowMajor_val_one]; show (0 * 1 + 0) * 6400 + r.val = r.val; omega)]
  have e2 : iota .tc S64x6400 32 [0] hi (ix2 g r) = BitVec.ofNat 32 g.val := by
    show BitVec.ofNat 32 (0 * 64 + g.val) = _
    rw [Nat.zero_mul, Nat.zero_add]
  show FloatOps.sitofp (F := Ideal) .f32 ((IntOp.cmpi .eq (iota .tc S64x6400 32 [0] hi (ix2 g r))
      (broadcastTo S64x6400 (shapeCast S1x6400 (shapeCast S6400 x3 h1) h2) h3 (ix2 g r))).setWidth 32) = _
  rw [e1, e2]
  rfl

/-- The body's result at entry (r, j), written out. -/
def payAt (x3 : Vec Ideal S1x1x6400 .i32) (x4 : Vec Ideal S64x256 .bf16) (x5 : Vec Ideal S640x256 .bf16)
    (x0 x1 : Vec Ideal S6400x256 .f32) (x2 : Vec Ideal S6400x128 .f32) (r : Fin 6400) (j : Fin 256) : EReal :=
  max ((((∑ k : Fin 256, x0 (ix2 r k) * x5 (ix2 (⟨0 + k.val, by omega⟩ : Fin 640) j))
        + (∑ k : Fin 256, x1 (ix2 r k) * x5 (ix2 (⟨256 + k.val, by omega⟩ : Fin 640) j)))
        + (∑ k : Fin 128, x2 (ix2 r k) * x5 (ix2 (⟨512 + k.val, by omega⟩ : Fin 640) j)))
      + (∑ g : Fin 64, hot (x3 (ix3 (0 : Fin 1) (0 : Fin 1) r)) g * x4 (ix2 g j))) 0

/-- The body's one stored value, at entry (r, j), is that. -/
theorem pay_apply (x3 : Vec Ideal S1x1x6400 .i32) (x4 : Vec Ideal S64x256 .bf16) (x5 : Vec Ideal S640x256 .bf16)
    (x0 x1 : Vec Ideal S6400x256 .f32) (x2 : Vec Ideal S6400x128 .f32) (r : Fin 6400) (j : Fin 256) :
    k0_pay1 (F := Ideal) x3 x4 x5 x0 x1 x2 (ix2 r j) = payAt x3 x4 x5 x0 x1 x2 r j := by
  unfold k0_pay1 payAt
  dsimp only
  rw [maximumf_apply, addf_apply, addf_apply, addf_apply]
  rw [matmul_rc_apply dot_S6400x256_S256x256_S6400x256_1_0_0_1_n_n rfl rfl rfl rfl rfl rfl,
    matmul_rc_apply dot_S6400x256_S256x256_S6400x256_1_0_0_1_n_n rfl rfl rfl rfl rfl rfl,
    matmul_rc_apply dot_S6400x128_S128x256_S6400x256_1_0_0_1_n_n rfl rfl rfl rfl rfl rfl,
    matmul_cc_apply dot_S64x6400_S64x256_S6400x256_0_0_1_1_n_n rfl rfl rfl rfl rfl rfl]
  have hz : broadcast S6400x256 (FloatOps.ofBits (F := Ideal) .f32 0#32) (ix2 r j) = (0 : EReal) := Ideal.ofBits_zero_f32
  rw [hz]
  have hh := hot_entry x3 shapeCasts_S1x1x6400_S6400 shapeCasts_S6400_S1x6400 broadcasts_S1x6400_S64x6400
    iota_S64x6400_d0_w32 natLt_1_32 bitsLt_bf16_f32
  simp only [hh]
  simp only [truncf_apply, shapeCast_self, slice2_axis0_eq]

end Cert.KernelIdeal.Payload

end
-- ==== Proof.KernelAlgebra.lean ====
/-
  From the body's value at an entry to the edge model's value there. The body's last summand is the sum over the 64
  graphs of the indicator of "the edge's index word is g" times the table's row g. An index word below 64 equals
  exactly one graph number, so the sum has one term that is not zero, the table's row at that graph, with factor one:
  0 · x = 0 and 1 · x = x for every extended real x, the infinities included, so nothing has to be finite.
-/
import proofs.«409750_j35012573397767_4_alg».proof.Proof.KernelPayload
import proofs.«409750_j35012573397767_4_alg».proof.Proof.Spec
import Idealize.ShloMosaic.Lib.StableHlo.Predicate

noncomputable section

namespace Cert.KernelIdeal.Payload

open Idealize.ShloMosaic Idealize.ShloMosaic.ValueIdx Cert.KernelIdeal

/-- The indicator is one at the word's own graph number. -/
theorem hot_eq_one (w : BitVec 32) (g : Fin 64) (h : g.val = w.toNat) : hot w g = 1 := by
  have hw : BitVec.ofNat 32 g.val = w := by
    apply BitVec.eq_of_toNat_eq
    rw [BitVec.toNat_ofNat, h]
    exact Nat.mod_eq_of_lt w.isLt
  unfold hot
  rw [StableHlo.Predicate.cmpi_eq_iff.mpr hw]
  have e : ((1#1 : BitVec 1).setWidth 32).toInt = 1 := by decide
  show (((((1#1 : BitVec 1).setWidth 32).toInt : ℤ) : ℝ) : EReal) = 1
  rw [e]
  simp

/-- And zero at every other graph number. -/
theorem hot_eq_zero (w : BitVec 32) (g : Fin 64) (h : g.val ≠ w.toNat) : hot w g = 0 := by
  have hw : ¬ IntOp.cmpi .eq (BitVec.ofNat 32 g.val) w = 1#1 := by
    rw [StableHlo.Predicate.cmpi_eq_iff]
    intro he
    apply h
    have := congrArg BitVec.toNat he
    rw [BitVec.toNat_ofNat, Nat.mod_eq_of_lt (by have := g.isLt; omega)] at this
    exact this
  unfold hot
  rw [eq_zero_of_ne_one hw]
  have e : ((0#1 : BitVec 1).setWidth 32).toInt = 0 := by decide
  show (((((0#1 : BitVec 1).setWidth 32).toInt : ℤ) : ℝ) : EReal) = 0
  rw [e]
  simp

/-- The indicator sum selects the row at the word's graph number. -/
theorem sum_hot (w : BitVec 32) (hw : w.toNat < 64) (X : Fin 64 → EReal) :
    ∑ g : Fin 64, hot w g * X g = X ⟨w.toNat, hw⟩ := by
  rw [Finset.sum_eq_single (⟨w.toNat, hw⟩ : Fin 64)]
  · rw [hot_eq_one w ⟨w.toNat, hw⟩ rfl, one_mul]
  · intro g _ hg
    rw [hot_eq_zero w g (fun h => hg (Fin.ext h)), zero_mul]
  · intro h
    exact absurd (Finset.mem_univ _) h

/-- The body's value at entry (r, j) of a block is the edge model's value at (e, j), given what each loaded block
    holds along row r and column j in terms of the argument arrays at edge e, and the edge's index word below 64. -/
theorem payAt_eq_edgeOutAt (x3 : Vec Ideal S1x1x6400 .i32) (x4 : Vec Ideal S64x256 .bf16) (x5 : Vec Ideal S640x256 .bf16)
    (x0 x1 : Vec Ideal S6400x256 .f32) (x2 : Vec Ideal S6400x128 .f32)
    (dest src : FVec Ideal ⟨2, ![320000, 256]⟩ .f32) (edge : FVec Ideal ⟨2, ![320000, 128]⟩ .f32)
    (u : FVec Ideal ⟨2, ![64, 128]⟩ .f32) (batch : IVec ⟨1, ![320000]⟩ 32) (W : FVec Ideal ⟨2, ![768, 256]⟩ .f32)
    (b : FVec Ideal ⟨1, ![256]⟩ .f32) (r : Fin 6400) (j : Fin 256) (e : Fin 320000)
    (h0 : ∀ k : Fin 256, x0 (ix2 r k) = dest (ix2 e k)) (h1 : ∀ k : Fin 256, x1 (ix2 r k) = src (ix2 e k))
    (h2 : ∀ k : Fin 128, x2 (ix2 r k) = edge (ix2 e k))
    (h3 : x3 (ix3 (0 : Fin 1) (0 : Fin 1) r) = batch (ix1 e))
    (h4 : ∀ g : Fin 64, x4 (ix2 g j) = (∑ k : Fin 128, u (ix2 g k) * W (ix2 (⟨640 + k.val, by omega⟩ : Fin 768) j)) + b (ix1 j))
    (h5 : ∀ (q : Fin 640) (q' : Fin 768), q'.val = q.val → x5 (ix2 q j) = W (ix2 q' j))
    (hb : (batch (ix1 e)).toNat < 64) :
    payAt x3 x4 x5 x0 x1 x2 r j = Cert.Spec.edgeOutAt dest src edge u batch W b e j := by
  unfold payAt Cert.Spec.edgeOutAt
  rw [h3, sum_hot _ hb, h4]
  have hg : (⟨(batch (ix1 e)).toNat, hb⟩ : Fin 64) = Cert.Spec.graphOf batch e :=
    Fin.ext (Nat.mod_eq_of_lt hb).symm
  rw [hg]
  have s0 : ∑ k : Fin 256, x0 (ix2 r k) * x5 (ix2 (⟨0 + k.val, by omega⟩ : Fin 640) j)
      = ∑ k : Fin 256, dest (ix2 e k) * W (ix2 (⟨k.val, by omega⟩ : Fin 768) j) :=
    Finset.sum_congr rfl fun k _ => by rw [h0 k, h5 _ (⟨k.val, by omega⟩ : Fin 768) (Nat.zero_add _).symm]
  have s1 : ∑ k : Fin 256, x1 (ix2 r k) * x5 (ix2 (⟨256 + k.val, by omega⟩ : Fin 640) j)
      = ∑ k : Fin 256, src (ix2 e k) * W (ix2 (⟨256 + k.val, by omega⟩ : Fin 768) j) :=
    Finset.sum_congr rfl fun k _ => by rw [h1 k, h5 _ (⟨256 + k.val, by omega⟩ : Fin 768) rfl]
  have s2 : ∑ k : Fin 128, x2 (ix2 r k) * x5 (ix2 (⟨512 + k.val, by omega⟩ : Fin 640) j)
      = ∑ k : Fin 128, edge (ix2 e k) * W (ix2 (⟨512 + k.val, by omega⟩ : Fin 768) j) :=
    Finset.sum_congr rfl fun k _ => by rw [h2 k, h5 _ (⟨512 + k.val, by omega⟩ : Fin 768) rfl]
  rw [s0, s1, s2]

end Cert.KernelIdeal.Payload

end
-- ==== Proof.KernelHostArrays.lean ====
/-
  The three arrays the kernel program's host operations compute before the pipelined region, each read at an index
  in terms of the argument arrays:
    the index words reshaped to [50, 1, 6400]: entry (t, 0, r) is word 6400 t + r;
    the weight block: rows 0–639 of W;
    the folded table: entry (g, j) is ∑ k<128, u g k · W (640 + k) j + b j — the last band's product with the bias
    added (the three changes of float format on the way are the identity at the ideal values).
-/
import proofs.«409750_j35012573397767_4_alg».proof.Proof.Gen.KernelIdeal.Frame
import proofs.«409750_j35012573397767_4_alg».proof.Proof.LibDotSum
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx Cert.Lib

variable (m : (ℓ : Loc nD τ sig) → Buf (Elt Ideal) ℓ)

/-! ## The argument arrays, each at its literal type -/

/-- src [320000, 256]. -/
abbrev srcArr (c : Dev nD) : FVec Ideal S320000x256 .f32 := m ((c : Thread nD τ).loc main_arg0)
/-- dest [320000, 256]. -/
abbrev destArr (c : Dev nD) : FVec Ideal S320000x256 .f32 := m ((c : Thread nD τ).loc main_arg1)
/-- edge_attr [320000, 128]. -/
abbrev edgeArr (c : Dev nD) : FVec Ideal S320000x128 .f32 := m ((c : Thread nD τ).loc main_arg2)
/-- u [64, 128]. -/
abbrev uArr (c : Dev nD) : FVec Ideal S64x128 .f32 := m ((c : Thread nD τ).loc main_arg3)
/-- batch [320000], the index words. -/
abbrev batchArr (c : Dev nD) : IVec S320000 32 := m ((c : Thread nD τ).loc main_arg4)
/-- W [768, 256]. -/
abbrev wArr (c : Dev nD) : FVec Ideal S768x256 .f32 := m ((c : Thread nD τ).loc main_arg5)
/-- b [256]. -/
abbrev bArr (c : Dev nD) : FVec Ideal S256 .f32 := m ((c : Thread nD τ).loc main_arg6)

/-! ## The reshaped index words -/

theorem words_eq (c : Dev nD) : (V m c main_v10 : S50x1x6400.Idx → BitVec 32)
    = shapeCast S50x1x6400 (batchArr m c) shapeCasts_S320000_S50x1x6400 := by
  dsimp only [V, hostOps0]
  after_results
  rfl

/-- Entry (t, 0, r) of the reshaped words is word 6400 t + r. -/
theorem words_apply (c : Dev nD) (t : Fin 50) (r : Fin 6400) (e : Fin 320000) (he : e.val = 6400 * t.val + r.val) :
    (V m c main_v10 : S50x1x6400.Idx → BitVec 32) (ix3 t (0 : Fin 1) r) = batchArr m c (ix1 e) := by
  rw [words_eq]
  exact shapeCast_apply _ _ (ix3 t (0 : Fin 1) r) (ix1 e) (by
    rw [Shape.rowMajor_val_one, Shape.rowMajor_val_three]
    show e.val = (t.val * 1 + 0) * 6400 + r.val
    omega)

/-! ## The weight block -/

theorem wblock_eq (c : Dev nD) : (V m c main_v9 : S640x256.Idx → EReal)
    = truncf (F := Ideal) .bf16 (extractStridedSlice S640x256 ![0, 0] (wArr m c) slices_S768x256_S640x256_0_0)
        bitsLt_bf16_f32 := by
  dsimp only [V, hostOps0]
  after_results

/-- Entry (q, j) of the weight block is W (q, j). -/
theorem wblock_apply (c : Dev nD) (q : Fin 640) (j : Fin 256) (q' : Fin 768) (hq : q'.val = q.val) :
    (V m c main_v9 : S640x256.Idx → EReal) (ix2 q j) = wArr m c (ix2 q' j) := by
  rw [wblock_eq]
  exact slice2_axis0_apply 0 (wArr m c) slices_S768x256_S640x256_0_0 q j q' (by omega)

/-! ## The folded table -/

theorem table_eq (c : Dev nD) : (V m c main_v7 : S64x256.Idx → EReal)
    = truncf (F := Ideal) .bf16
        (addf
          (Host.dotGeneral dot_S64x128_S128x256_S64x256_1_0_0_1_n_n none
            (truncf (F := Ideal) .bf16 (uArr m c) bitsLt_bf16_f32)
            (truncf (F := Ideal) .bf16
              (extractStridedSlice S128x256 ![640, 0] (wArr m c) slices_S768x256_S128x256_640_0)
              bitsLt_bf16_f32))
          (broadcastInDim S64x256 ![0, 1] bcast_S1x256_S64x256_0_1
            (broadcastInDim S1x256 ![1] bcast_S256_S1x256_1 (bArr m c))))
        bitsLt_bf16_f32 := by
  dsimp only [V, hostOps0]
  after_results

/-- The bias broadcast along the rows, at (g, j), is b j. -/
theorem bias_apply (b : FVec Ideal S256 .f32) (g : Fin 64) (j : Fin 256) :
    broadcastInDim S64x256 ![0, 1] bcast_S1x256_S64x256_0_1 (broadcastInDim S1x256 ![1] bcast_S256_S1x256_1 b) (ix2 g j)
      = b (ix1 j) := by
  rw [broadcastInDim_apply ![0, 1] bcast_S1x256_S64x256_0_1 _ (ix2 g j) (ix2 (0 : Fin 1) j) (by
    intro a
    match a with
    | ⟨0, _⟩ => rfl
    | ⟨1, _⟩ => rfl)]
  exact broadcastInDim_apply ![1] bcast_S256_S1x256_1 b (ix2 (0 : Fin 1) j) (ix1 j) (by
    intro a
    match a with
    | ⟨0, _⟩ => rfl)

/-- Entry (g, j) of the folded table. -/
theorem table_apply (c : Dev nD) (g : Fin 64) (j : Fin 256) :
    (V m c main_v7 : S64x256.Idx → EReal) (ix2 g j)
      = (∑ k : Fin 128, uArr m c (ix2 g k) * wArr m c (ix2 (⟨640 + k.val, by omega⟩ : Fin 768) j))
        + bArr m c (ix1 j) := by
  rw [table_eq]
  show (addf (F := Ideal) _ _) (ix2 g j) = _
  rw [addf_apply, bias_apply, dotGeneral_rc_apply dot_S64x128_S128x256_S64x256_1_0_0_1_n_n rfl rfl rfl rfl rfl rfl]
  refine congrArg (· + _) (Finset.sum_congr rfl fun k _ => ?_)
  show uArr m c (ix2 g k) * _ = _
  refine congrArg (_ * ·) ?_
  exact slice2_axis0_apply 640 (wArr m c) slices_S768x256_S128x256_640_0 k j _ rfl

end Cert.KernelIdeal.HostArrays

end
-- ==== Proof.KernelArray.lean ====
/-
  The kernel program's result array as one function of the argument arrays. The grid has 50 points; point t stages
  rows 6400 t … 6400 t + 6399 of dest, src and edge_attr, the t-th row of 6400 index words, the whole folded table and
  the whole weight block, and writes back rows 6400 t … 6400 t + 6399 of the result. What it writes at row r, column j
  of its block is the edge model's value at edge 6400 t + r, column j; the 50 blocks tile the 320000 rows, so the
  array ends as the edge model's function everywhere.
-/
import proofs.«409750_j35012573397767_4_alg».proof.Proof.Gen.KernelIdeal.Value
import proofs.«409750_j35012573397767_4_alg».proof.Proof.Spec
import proofs.«409750_j35012573397767_4_alg».proof.Proof.KernelAlgebra
import proofs.«409750_j35012573397767_4_alg».proof.Proof.KernelHostArrays
import Idealize.ShloMosaic.Lib.Pipeline.Value
import Idealize.ShloMosaic.Lib.ValueIdx

noncomputable section

namespace Cert.KernelIdeal.KernelArray

open Cert.KernelIdeal Cert.KernelIdeal.Gen Idealize.ShloMosaic Idealize.ShloMosaic.TcCoe Idealize.SL.Sem
open Idealize.ShloMosaic.ValueIdx Cert.KernelIdeal.HostArrays Cert.KernelIdeal.Payload
open Idealize.ShloMosaic.Pipeline (Dat)

variable (m : (ℓ : Loc nD τ sig) → Buf (Elt Ideal) ℓ)

/-- A block that starts at the origin of its staging buffer: all offsets zero. -/
theorem zeroOffsets2 : (![0, 0] : Fin 2 → Nat) = fun _ => 0 := funext fun a => by fin_cases a <;> rfl
theorem zeroOffsets3 : (![0, 0, 0] : Fin 3 → Nat) = fun _ => 0 := funext fun a => by fin_cases a <;> rfl

/-- The printed index maps, decided over the 50 grid points: the four row-blocked windows and the index words'
    window sit at block t, the table and the weight block at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The edge model's function of the argument arrays as core `c` holds them. -/
abbrev G (c : Dev nD) : FVec Ideal S320000x256 .f32 :=
  Cert.Spec.edgeOut (destArr m c) (srcArr m c) (edgeArr m c) (uArr m c) (batchArr m c) (wArr m c) (bArr m c)

/-! ## Each staged block, read at an entry, in terms of the argument arrays -/

/-- Row r of point t's dest block is row e = 6400 t + r of dest. -/
theorem dest_blk (c : Dev nD) (t : Fin cfg0.N) (r : Fin 6400) (k : Fin 256) (e : Fin 320000)
    (he : e.val = 6400 * t.val + r.val) :
    (iblk m c 0 t : Vec Ideal S6400x256 .f32) (ix2 r k) = destArr m c (ix2 e k) := by
  obtain ⟨i00, i01, i10, i11, i20, i21, i30, i31, i32, i40, i41, i50, i51, i60, i61⟩ := block_indices t
  unfold iblk
  rw [View.read_apply]
  show V m c main_arg1 _ = _
  rw [V_main_arg1]
  refine congrArg (destArr m c) ?_
  funext a
  apply Fin.ext
  match a with
  | ⟨0, _⟩ => show win0_0.index t (0 : Fin 2) * 6400 + 1 * r.val = e.val; rw [i00, he]; omega
  | ⟨1, _⟩ => show win0_0.index t (1 : Fin 2) * 256 + 1 * k.val = k.val; rw [i01]; omega

/-- Row r of point t's src block is row e of src. -/
theorem src_blk (c : Dev nD) (t : Fin cfg0.N) (r : Fin 6400) (k : Fin 256) (e : Fin 320000)
    (he : e.val = 6400 * t.val + r.val) :
    (iblk m c 1 t : Vec Ideal S6400x256 .f32) (ix2 r k) = srcArr m c (ix2 e k) := by
  obtain ⟨i00, i01, i10, i11, i20, i21, i30, i31, i32, i40, i41, i50, i51, i60, i61⟩ := block_indices t
  unfold iblk
  rw [View.read_apply]
  show V m c main_arg0 _ = _
  rw [V_main_arg0]
  refine congrArg (srcArr m c) ?_
  funext a
  apply Fin.ext
  match a with
  | ⟨0, _⟩ => show win0_1.index t (0 : Fin 2) * 6400 + 1 * r.val = e.val; rw [i10, he]; omega
  | ⟨1, _⟩ => show win0_1.index t (1 : Fin 2) * 256 + 1 * k.val = k.val; rw [i11]; omega

/-- Row r of point t's edge_attr block is row e of edge_attr. -/
theorem edge_blk (c : Dev nD) (t : Fin cfg0.N) (r : Fin 6400) (k : Fin 128) (e : Fin 320000)
    (he : e.val = 6400 * t.val + r.val) :
    (iblk m c 2 t : Vec Ideal S6400x128 .f32) (ix2 r k) = edgeArr m c (ix2 e k) := by
  obtain ⟨i00, i01, i10, i11, i20, i21, i30, i31, i32, i40, i41, i50, i51, i60, i61⟩ := block_indices t
  unfold iblk
  rw [View.read_apply]
  show V m c main_arg2 _ = _
  rw [V_main_arg2]
  refine congrArg (edgeArr m c) ?_
  funext a
  apply Fin.ext
  match a with
  | ⟨0, _⟩ => show win0_2.index t (0 : Fin 2) * 6400 + 1 * r.val = e.val; rw [i20, he]; omega
  | ⟨1, _⟩ => show win0_2.index t (1 : Fin 2) * 128 + 1 * k.val = k.val; rw [i21]; omega

/-- The r-th index word of point t's block is word e of batch. -/
theorem words_blk (c : Dev nD) (t : Fin cfg0.N) (r : Fin 6400) (e : Fin 320000) (he : e.val = 6400 * t.val + r.val) :
    (iblk m c 3 t : Vec Ideal S1x1x6400 .i32) (ix3 (0 : Fin 1) (0 : Fin 1) r) = batchArr m c (ix1 e) := by
  obtain ⟨i00, i01, i10, i11, i20, i21, i30, i31, i32, i40, i41, i50, i51, i60, i61⟩ := block_indices t
  have ht : t.val < 50 := lt_of_lt_of_eq t.isLt N_0
  unfold iblk
  rw [View.read_apply]
  show (V m c main_v10 : S50x1x6400.Idx → BitVec 32) _ = _
  refine Eq.trans (congrArg (V m c main_v10 : S50x1x6400.Idx → BitVec 32) ?_)
    (words_apply m c (⟨t.val, ht⟩ : Fin 50) r e he)
  funext a
  apply Fin.ext
  match a with
  | ⟨0, _⟩ => show win0_3.index t (0 : Fin 3) * 1 + 1 * 0 = t.val; rw [i30]; omega
  | ⟨1, _⟩ => show win0_3.index t (1 : Fin 3) * 1 + 1 * 0 = 0; rw [i31]
  | ⟨2, _⟩ => show win0_3.index t (2 : Fin 3) * 6400 + 1 * r.val = r.val; rw [i32]; omega

/-- Every point stages the whole folded table. -/
theorem table_blk (c : Dev nD) (t : Fin cfg0.N) (g : Fin 64) (j : Fin 256) :
    (iblk m c 4 t : Vec Ideal S64x256 .bf16) (ix2 g j)
      = (∑ k : Fin 128, uArr m c (ix2 g k) * wArr m c (ix2 (⟨640 + k.val, by omega⟩ : Fin 768) j)) + bArr m c (ix1 j) := by
  obtain ⟨i00, i01, i10, i11, i20, i21, i30, i31, i32, i40, i41, i50, i51, i60, i61⟩ := block_indices t
  unfold iblk
  rw [View.read_apply]
  show (V m c main_v7 : S64x256.Idx → EReal) _ = _
  refine Eq.trans (congrArg (V m c main_v7 : S64x256.Idx → EReal) ?_) (table_apply m c g j)
  funext a
  apply Fin.ext
  match a with
  | ⟨0, _⟩ => show win0_4.index t (0 : Fin 2) * 64 + 1 * g.val = g.val; rw [i40]; omega
  | ⟨1, _⟩ => show win0_4.index t (1 : Fin 2) * 256 + 1 * j.val = j.val; rw [i41]; omega

/-- Every point stages the whole weight block: rows 0–639 of W. -/
theorem wblock_blk (c : Dev nD) (t : Fin cfg0.N) (q : Fin 640) (j : Fin 256) (q' : Fin 768) (hq : q'.val = q.val) :
    (iblk m c 5 t : Vec Ideal S640x256 .bf16) (ix2 q j) = wArr m c (ix2 q' j) := by
  obtain ⟨i00, i01, i10, i11, i20, i21, i30, i31, i32, i40, i41, i50, i51, i60, i61⟩ := block_indices t
  unfold iblk
  rw [View.read_apply]
  show (V m c main_v9 : S640x256.Idx → EReal) _ = _
  refine Eq.trans (congrArg (V m c main_v9 : S640x256.Idx → EReal) ?_) (wblock_apply m c q j q' hq)
  funext a
  apply Fin.ext
  match a with
  | ⟨0, _⟩ => show win0_5.index t (0 : Fin 2) * 640 + 1 * q.val = q.val; rw [i50]; omega
  | ⟨1, _⟩ => show win0_5.index t (1 : Fin 2) * 256 + 1 * j.val = j.val; rw [i51]; omega

/-! ## What a point writes back, and the whole array -/

/-- Point t writes back block t of the edge model's function. -/
theorem flushed_eq (c : Dev nD) (hb : ∀ e : Fin 320000, (batchArr m c (ix1 e)).toNat < 64) (t : Fin cfg0.N) :
    (dats m 0 c).flushed 6 t = ((cfg0.win 6).blk t).view.read (Elt Ideal) (G m c) := by
  rw [Value.flushed6]
  unfold out0_6
  rw [View.canon_unit_zero zeroOffsets2]
  simp only [View.ld_unit_zero (S := S1x1x6400) zeroOffsets3, View.ld_unit_zero (S := S64x256) zeroOffsets2,
    View.ld_unit_zero (S := S640x256) zeroOffsets2, View.ld_unit_zero (S := S6400x256) zeroOffsets2, View.ld_unit_zero (S := S6400x128) zeroOffsets2]
  obtain ⟨i00, i01, i10, i11, i20, i21, i30, i31, i32, i40, i41, i50, i51, i60, i61⟩ := block_indices t
  have ht : t.val < 50 := lt_of_lt_of_eq t.isLt N_0
  funext y
  obtain ⟨r, j, rfl⟩ : ∃ (r : Fin 6400) (j : Fin 256), y = ix2 r j := ⟨y 0, y 1, eq_ix2 y⟩
  obtain ⟨e, he⟩ : ∃ e : Fin 320000, e.val = 6400 * t.val + r.val := ⟨⟨6400 * t.val + r.val, by omega⟩, rfl⟩
  show k0_pay1 (F := Ideal) (iblk m c 3 t) (iblk m c 4 t) (iblk m c 5 t) (iblk m c 0 t) (iblk m c 1 t) (iblk m c 2 t) (ix2 r j)
    = G m c (((cfg0.win 6).blk t).view.emb (ix2 r j))
  have hidx : ((cfg0.win 6).blk t).view.emb (ix2 r j) = ix2 e j := by
    funext a
    apply Fin.ext
    match a with
    | ⟨0, _⟩ => show win0_6.index t (0 : Fin 2) * 6400 + 1 * r.val = e.val; rw [i60, he]; omega
    | ⟨1, _⟩ => show win0_6.index t (1 : Fin 2) * 256 + 1 * j.val = j.val; rw [i61]; omega
  rw [hidx]
  refine (pay_apply _ _ _ _ _ _ r j).trans ?_
  exact payAt_eq_edgeOutAt _ _ _ _ _ _ (destArr m c) (srcArr m c) (edgeArr m c) (uArr m c) (batchArr m c) (wArr m c)
    (bArr m c) r j e (fun k => dest_blk m c t r k e he) (fun k => src_blk m c t r k e he)
    (fun k => edge_blk m c t r k e he) (words_blk m c t r e he) (fun g => table_blk m c t g j)
    (fun q q' hq => wblock_blk m c t q j q' hq) (hb e)

/-- An index of the result array is in point t's block iff each coordinate is in the block's range on its axis. -/
theorem mem_out_block (t : Fin cfg0.N) (i : S320000x256.Idx) :
    i ∈ ((cfg0.win 6).blk t).view.set ↔ ∀ a : Fin 2, win0_6.index t a * S6400x256.size a ≤ (i a).val
      ∧ (i a).val < win0_6.index t a * S6400x256.size a + S6400x256.size a := by
  show i ∈ ((View.whole main_v11).slice (win0_6.rect t)).set ↔ _
  rw [View.set_slice_whole, Rect.mem_set_unit]
  exact Iff.rfl

/-- Every index of the result array is in some point's block: row R is in block R / 6400. -/
theorem cover (i : S320000x256.Idx) :
    ∃ t : Fin cfg0.N, (cfg0.win 6).flush t = true ∧ i ∈ ((cfg0.win 6).blk t).view.set := by
  have hi0 : (i 0).val < 320000 := (i 0).isLt
  have hi1 : (i 1).val < 256 := (i 1).isLt
  have hN : cfg0.N = 50 := N_0
  obtain ⟨t, ht⟩ : ∃ t : Fin cfg0.N, t.val = (i 0).val / 6400 := ⟨⟨(i 0).val / 6400, by rw [hN]; omega⟩, rfl⟩
  obtain ⟨i00, i01, i10, i11, i20, i21, i30, i31, i32, i40, i41, i50, i51, i60, i61⟩ := block_indices t
  refine ⟨t, flush0_6 t, ?_⟩
  rw [mem_out_block]
  intro a
  match a with
  | ⟨0, _⟩ =>
    show win0_6.index t (0 : Fin 2) * 6400 ≤ (i 0).val ∧ (i 0).val < win0_6.index t (0 : Fin 2) * 6400 + 6400
    rw [i60, ht]; omega
  | ⟨1, _⟩ =>
    show win0_6.index t (1 : Fin 2) * 256 ≤ (i 1).val ∧ (i 1).val < win0_6.index t (1 : Fin 2) * 256 + 256
    rw [i61]; omega

/-- The result array after the run is the edge model's function of the argument arrays. -/
theorem final (c : Dev nD) (hb : ∀ e : Fin 320000, (batchArr m c (ix1 e)).toNat < 64) :
    (dats m 0 c).arrAt 6 cfg0.N = G m c :=
  (dats m 0 c).arrAt_eq_of_cover 6 (G m c) (fun t _ => flushed_eq m c hb t) cover

/-- Where every index word is below 64, every weakly fair execution of the idealized kernel program ends with its
    result array at the edge model's function of the arguments, and the arguments unchanged. -/
theorem run_spec (m : (ℓ : Loc nD τ sig) → Buf (Elt Ideal) ℓ) (ρ : Dev nD → PrngReg)
    (hb : ∀ (c : Dev nD) (e : Fin 320000), (m ((c.tc : Thread nD τ).loc main_arg4) (ix1 e)).toNat < 64) :
    θ_run (defs (F := Ideal)) (onTc (τ := τ) (main (F := Ideal))) ⟨m, fun _ => 0, ρ⟩ fun r => ∀ c : Dev nD,
      r.2.mem ((c.tc : Thread nD τ).loc main_v11)
          = Cert.Spec.edgeOut (m ((c.tc : Thread nD τ).loc main_arg1)) (m ((c.tc : Thread nD τ).loc main_arg0))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final m c (fun e => hb c e)), (h c).2⟩) (Value.run_blocks m ρ)

end Cert.KernelIdeal.KernelArray

end
-- ==== Proof.LibConcatFold.lean ====
/-
  A concatenation of two, three or four arrays with the pieces as PLAIN arguments. The printed form keeps the pieces in
  a list of (shape, array) pairs; the array's type there depends on the pair's shape, and rewriting with an equation
  does not descend into such a pair. These wrappers are the same concatenation by definition, each piece an ordinary
  argument, so that a composed host term can be rewritten piece by piece and then unfolded back to the printed form.
-/
import Idealize.ShloMosaic.PureOps.ShapeOps

noncomputable section

namespace Cert.Lib

open Idealize.ShloMosaic

variable {α : Type}

/-- Two pieces. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h
/-- Three pieces. -/
def cat3 (t : Shape) (a : Fin t.rank) (s₁ s₂ s₃ : Shape) (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h
/-- Four pieces. -/
def cat4 (t : Shape) (a : Fin t.rank) (s₁ s₂ s₃ s₄ : Shape) (h : Shape.Concatenates [s₁, s₂, s₃, s₄] t a)
    (x₁ : s₁.Idx → α) (x₂ : s₂.Idx → α) (x₃ : s₃.Idx → α) (x₄ : s₄.Idx → α) : t.Idx → α :=
  concatenate t a [⟨s₁, x₁⟩, ⟨s₂, x₂⟩, ⟨s₃, x₃⟩, ⟨s₄, x₄⟩] h

/-- The printed two-piece concatenation is the wrapper. -/
theorem cat2_fold (t : Shape) (a : Fin t.rank) (s₁ s₂ : Shape) (x₁ : s₁.Idx → α) (x₂ : s₂.Idx → α)
    (h : Shape.Concatenates (([⟨s₁, x₁⟩, ⟨s₂, x₂⟩] : List ((s : Shape) × (s.Idx → α))).map Sigma.fst) t a) :
    concatenate t a [⟨s₁, x₁⟩, ⟨s₂, x₂⟩] h = cat2 t a s₁ s₂ h x₁ x₂ := rfl
/-- The printed three-piece concatenation is the wrapper. -/
theorem cat3_fold (t : Shape) (a : Fin t.rank) (s₁ s₂ s₃ : Shape) (x₁ : s₁.Idx → α) (x₂ : s₂.Idx → α) (x₃ : s₃.Idx → α)
    (h : Shape.Concatenates (([⟨s₁, x₁⟩, ⟨s₂, x₂⟩, ⟨s₃, x₃⟩] : List ((s : Shape) × (s.Idx → α))).map Sigma.fst) t a) :
    concatenate t a [⟨s₁, x₁⟩, ⟨s₂, x₂⟩, ⟨s₃, x₃⟩] h = cat3 t a s₁ s₂ s₃ h x₁ x₂ x₃ := rfl
/-- The printed four-piece concatenation is the wrapper. -/
theorem cat4_fold (t : Shape) (a : Fin t.rank) (s₁ s₂ s₃ s₄ : Shape) (x₁ : s₁.Idx → α) (x₂ : s₂.Idx → α) (x₃ : s₃.Idx → α)
    (x₄ : s₄.Idx → α)
    (h : Shape.Concatenates (([⟨s₁, x₁⟩, ⟨s₂, x₂⟩, ⟨s₃, x₃⟩, ⟨s₄, x₄⟩] : List ((s : Shape) × (s.Idx → α))).map Sigma.fst) t a) :
    concatenate t a [⟨s₁, x₁⟩, ⟨s₂, x₂⟩, ⟨s₃, x₃⟩, ⟨s₄, x₄⟩] h = cat4 t a s₁ s₂ s₃ s₄ h x₁ x₂ x₃ x₄ := rfl

end Cert.Lib

end
-- ==== Proof.RefAlgebra.lean ====
/-
  The reference's arithmetic at edge e, column j, brought to the edge model's form. The reference contracts the
  768-wide row [dest e, src e, edge e, t e] — t e the row it looked up for the edge — with W at once and adds the bias.
  Columns 0–255 of that row are dest's, 256–511 src's, 512–639 edge_attr's and 640–767 the looked-up row's, so the sum
  over the 768 columns is the sum of four sums over the bands; sums of extended reals may be split and regrouped freely
  (addition is commutative and associative there), which is all that is used.
-/
import proofs.«409750_j35012573397767_4_alg».proof.Proof.Spec
import proofs.«409750_j35012573397767_4_alg».proof.Proof.LibConcatFold
import Idealize.ShloMosaic.Lib.Pipeline.Value
import Idealize.ShloMosaic.Lib.ValueIdx
import Mathlib.Algebra.BigOperators.Fin

noncomputable section

namespace Cert.Spec

open Idealize.ShloMosaic Idealize.ShloMosaic.ValueIdx Cert.Lib

/-! ## A sum over 768 positions as four sums over its bands -/

theorem sum_768 {β : Type} [AddCommMonoid β] (f : Fin 768 → β) :
    ∑ q : Fin 768, f q
      = (((∑ k : Fin 256, f ⟨k.val, by omega⟩) + ∑ k : Fin 256, f ⟨256 + k.val, by omega⟩)
          + ∑ k : Fin 128, f ⟨512 + k.val, by omega⟩) + ∑ k : Fin 128, f ⟨640 + k.val, by omega⟩ := by
  have e1 := Fin.sum_univ_add (a := 640) (b := 128) (fun i : Fin (640 + 128) => f ⟨i.val, by omega⟩)
  have e2 := Fin.sum_univ_add (a := 512) (b := 128) (fun i : Fin (512 + 128) => f ⟨i.val, by omega⟩)
  have e3 := Fin.sum_univ_add (a := 256) (b := 256) (fun i : Fin (256 + 256) => f ⟨i.val, by omega⟩)
  exact e1.trans (congrArg (· + ∑ k : Fin 128, f ⟨640 + k.val, by omega⟩)
    (e2.trans (congrArg (· + ∑ k : Fin 128, f ⟨512 + k.val, by omega⟩) e3)))

/-! ## The concatenated row's four bands -/

section Bands

variable (dest src : FVec Ideal ⟨2, ![320000, 256]⟩ .f32) (edge tk : FVec Ideal ⟨2, ![320000, 128]⟩ .f32)
  (h : Shape.Concatenates [⟨2, ![320000, 256]⟩, ⟨2, ![320000, 256]⟩, ⟨2, ![320000, 128]⟩, ⟨2, ![320000, 128]⟩]
    ⟨2, ![320000, 768]⟩ 1)

/-- Columns 0–255 are dest's. -/
theorem cat_band0 (e : Fin 320000) (k : Fin 256) (q : Fin 768) (hq : q.val = k.val) :
    cat4 ⟨2, ![320000, 768]⟩ 1 _ _ _ _ h dest src edge tk (ix2 e q) = dest (ix2 e k) := by
  unfold cat4
  refine concatenate_apply_piece (t := ⟨2, ![320000, 768]⟩) (1 : Fin 2)
    ([⟨⟨2, ![320000, 256]⟩, dest⟩, ⟨⟨2, ![320000, 256]⟩, src⟩, ⟨⟨2, ![320000, 128]⟩, edge⟩, ⟨⟨2, ![320000, 128]⟩, tk⟩] : List ((s : Shape) × (s.Idx → EReal)))
    h (ix2 e q) 0 (by show (0 : ℕ) < 4; omega) _ dest rfl rfl 0 rfl (ix2 e k) ?_ ?_
  · intro b hb
    match b with
    | ⟨0, _⟩ => rfl
    | ⟨1, _⟩ => exact absurd rfl hb
  · show 0 + k.val = q.val
    omega

/-- Columns 256–511 are src's. -/
theorem cat_band1 (e : Fin 320000) (k : Fin 256) (q : Fin 768) (hq : q.val = 256 + k.val) :
    cat4 ⟨2, ![320000, 768]⟩ 1 _ _ _ _ h dest src edge tk (ix2 e q) = src (ix2 e k) := by
  unfold cat4
  refine concatenate_apply_piece (t := ⟨2, ![320000, 768]⟩) (1 : Fin 2)
    ([⟨⟨2, ![320000, 256]⟩, dest⟩, ⟨⟨2, ![320000, 256]⟩, src⟩, ⟨⟨2, ![320000, 128]⟩, edge⟩, ⟨⟨2, ![320000, 128]⟩, tk⟩] : List ((s : Shape) × (s.Idx → EReal)))
    h (ix2 e q) 1 (by show (1 : ℕ) < 4; omega) _ src rfl rfl 256 rfl (ix2 e k) ?_ ?_
  · intro b hb
    match b with
    | ⟨0, _⟩ => rfl
    | ⟨1, _⟩ => exact absurd rfl hb
  · show 256 + k.val = q.val
    omega

/-- Columns 512–639 are edge_attr's. -/
theorem cat_band2 (e : Fin 320000) (k : Fin 128) (q : Fin 768) (hq : q.val = 512 + k.val) :
    cat4 ⟨2, ![320000, 768]⟩ 1 _ _ _ _ h dest src edge tk (ix2 e q) = edge (ix2 e k) := by
  unfold cat4
  refine concatenate_apply_piece (t := ⟨2, ![320000, 768]⟩) (1 : Fin 2)
    ([⟨⟨2, ![320000, 256]⟩, dest⟩, ⟨⟨2, ![320000, 256]⟩, src⟩, ⟨⟨2, ![320000, 128]⟩, edge⟩, ⟨⟨2, ![320000, 128]⟩, tk⟩] : List ((s : Shape) × (s.Idx → EReal)))
    h (ix2 e q) 2 (by show (2 : ℕ) < 4; omega) _ edge rfl rfl 512 rfl (ix2 e k) ?_ ?_
  · intro b hb
    match b with
    | ⟨0, _⟩ => rfl
    | ⟨1, _⟩ => exact absurd rfl hb
  · show 512 + k.val = q.val
    omega

/-- Columns 640–767 are the looked-up row's. -/
theorem cat_band3 (e : Fin 320000) (k : Fin 128) (q : Fin 768) (hq : q.val = 640 + k.val) :
    cat4 ⟨2, ![320000, 768]⟩ 1 _ _ _ _ h dest src edge tk (ix2 e q) = tk (ix2 e k) := by
  unfold cat4
  refine concatenate_apply_piece (t := ⟨2, ![320000, 768]⟩) (1 : Fin 2)
    ([⟨⟨2, ![320000, 256]⟩, dest⟩, ⟨⟨2, ![320000, 256]⟩, src⟩, ⟨⟨2, ![320000, 128]⟩, edge⟩, ⟨⟨2, ![320000, 128]⟩, tk⟩] : List ((s : Shape) × (s.Idx → EReal)))
    h (ix2 e q) 3 (by show (3 : ℕ) < 4; omega) _ tk rfl rfl 640 rfl (ix2 e k) ?_ ?_
  · intro b hb
    match b with
    | ⟨0, _⟩ => rfl
    | ⟨1, _⟩ => exact absurd rfl hb
  · show 640 + k.val = q.val
    omega

end Bands

/-! ## The reference's value at (e, j) is the edge model's -/

theorem cat_dot_eq (dest src : FVec Ideal ⟨2, ![320000, 256]⟩ .f32) (edge tk : FVec Ideal ⟨2, ![320000, 128]⟩ .f32)
    (u : FVec Ideal ⟨2, ![64, 128]⟩ .f32) (batch : IVec ⟨1, ![320000]⟩ 32) (W : FVec Ideal ⟨2, ![768, 256]⟩ .f32)
    (b : FVec Ideal ⟨1, ![256]⟩ .f32)
    (h : Shape.Concatenates [⟨2, ![320000, 256]⟩, ⟨2, ![320000, 256]⟩, ⟨2, ![320000, 128]⟩, ⟨2, ![320000, 128]⟩]
      ⟨2, ![320000, 768]⟩ 1) (e : Fin 320000) (j : Fin 256)
    (htk : ∀ k : Fin 128, tk (ix2 e k) = u (ix2 (graphOf batch e) k)) :
    max ((∑ k : Fin 768, cat4 ⟨2, ![320000, 768]⟩ 1 _ _ _ _ h dest src edge tk (ix2 e k) * W (ix2 k j)) + b (ix1 j)) 0
      = edgeOutAt dest src edge u batch W b e j := by
  unfold edgeOutAt
  rw [sum_768 (fun q => cat4 ⟨2, ![320000, 768]⟩ 1 _ _ _ _ h dest src edge tk (ix2 e q) * W (ix2 q j))]
  have s0 : ∑ k : Fin 256, cat4 ⟨2, ![320000, 768]⟩ 1 _ _ _ _ h dest src edge tk (ix2 e (⟨k.val, by omega⟩ : Fin 768))
        * W (ix2 (⟨k.val, by omega⟩ : Fin 768) j)
      = ∑ k : Fin 256, dest (ix2 e k) * W (ix2 (⟨k.val, by omega⟩ : Fin 768) j) :=
    Finset.sum_congr rfl fun k _ => by rw [cat_band0 dest src edge tk h e k _ rfl]
  have s1 : ∑ k : Fin 256, cat4 ⟨2, ![320000, 768]⟩ 1 _ _ _ _ h dest src edge tk (ix2 e (⟨256 + k.val, by omega⟩ : Fin 768))
        * W (ix2 (⟨256 + k.val, by omega⟩ : Fin 768) j)
      = ∑ k : Fin 256, src (ix2 e k) * W (ix2 (⟨256 + k.val, by omega⟩ : Fin 768) j) :=
    Finset.sum_congr rfl fun k _ => by rw [cat_band1 dest src edge tk h e k _ rfl]
  have s2 : ∑ k : Fin 128, cat4 ⟨2, ![320000, 768]⟩ 1 _ _ _ _ h dest src edge tk (ix2 e (⟨512 + k.val, by omega⟩ : Fin 768))
        * W (ix2 (⟨512 + k.val, by omega⟩ : Fin 768) j)
      = ∑ k : Fin 128, edge (ix2 e k) * W (ix2 (⟨512 + k.val, by omega⟩ : Fin 768) j) :=
    Finset.sum_congr rfl fun k _ => by rw [cat_band2 dest src edge tk h e k _ rfl]
  have s3 : ∑ k : Fin 128, cat4 ⟨2, ![320000, 768]⟩ 1 _ _ _ _ h dest src edge tk (ix2 e (⟨640 + k.val, by omega⟩ : Fin 768))
        * W (ix2 (⟨640 + k.val, by omega⟩ : Fin 768) j)
      = ∑ k : Fin 128, u (ix2 (graphOf batch e) k) * W (ix2 (⟨640 + k.val, by omega⟩ : Fin 768) j) :=
    Finset.sum_congr rfl fun k _ => by rw [cat_band3 dest src edge tk h e k _ rfl, htk k]
  rw [s0, s1, s2, s3, add_assoc]

end Cert.Spec

end
-- ==== Proof.RefValue.lean ====
import proofs.«409750_j35012573397767_4_alg».proof.Proof.Gen.ReferenceIdeal
import proofs.«409750_j35012573397767_4_alg».proof.Proof.Spec
import proofs.«409750_j35012573397767_4_alg».proof.Proof.LibConcatFold
import proofs.«409750_j35012573397767_4_alg».proof.Proof.LibDotSum
import proofs.«409750_j35012573397767_4_alg».proof.Proof.RefAlgebra
import Idealize.ShloMosaic.Lib.StableHlo.Run
import Idealize.ShloMosaic.Lib.ValueIdx
import Idealize.ShloMosaic.PureOps.Ideal.Laws
import Idealize.ShloMosaic.PureOps.Reduce
import Idealize.ShloMosaic.Lib.StableHlo.Predicate
import Idealize.ShloMosaic.Lib.Pipeline.Value
import Mathlib.Algebra.BigOperators.Fin

noncomputable section

/-!
  The reference read as one function of its seven arguments, and that function read at an index.

  The program is a straight line of thirty-one array operations once its three outlined functions are written out at
  their calls, so its result buffer ends at the operations' composition, a term `refTerm` of the argument arrays, and no
  argument buffer is written. Read at edge `e` and column `j` over the extended reals, that term is the larger of zero and
  the contraction of the 768-wide concatenated row [dest, src, edge, looked-up row] of `e` with column `j` of the weights,
  plus the bias at `j`. The looked-up row is guarded three ways: an index word that reads negative is shifted by 64, a
  row whose index falls outside [0, 63] is replaced by a fill constant, and the row index is clamped into the table.
  Where every index word is below 64 none of the three acts, and the looked-up row of `e` is the table's row (index word
  of `e`), which is the edge model's `graphOf`. The split of the contraction into the four bands of the weights and the
  regrouping of the sum are the edge model's own lemma.
-/

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-! ## The program as a straight line -/

section Line
variable {F : FTy → Type} [FloatOps F]

/-- The reference's thirty-one operations in order, the three outlined functions written out at their calls: the
    twenty-three of the row lookup (its nested select among them), the concatenation, the contraction, the two
    broadcasts of the bias and the sum, and the three of the clamp at zero. -/
abbrev ops : List (HloOp τ sig (Elt F)) :=
  [ TRef.nullary main_call0.c (constantI S_ 32 0#32),
    TRef.unary main_call0.c main_call0.v0 (broadcastInDim S320000 ![] bcast_S_S320000),
    TRef.binary (.of main_arg4) main_call0.v0 main_call0.v1 (cmpi .slt),
    TRef.nullary main_call0.c_0 (constantI S_ 32 64#32),
    TRef.unary main_call0.c_0 main_call0.v2 (broadcastInDim S320000 ![] bcast_S_S320000),
    TRef.binary (.of main_arg4) main_call0.v2 main_call0.v3 addi,
    TRef.ternary main_call0.v1 main_call0.v3 (.of main_arg4) main_call0.call0.v0 select,
    TRef.unary main_call0.call0.v0 main_call0.v5 (broadcastInDim S320000x1 ![0] bcast_S320000_S320000x1_0),
    TRef.nullary main_call0.c_1 (constantI S1 32 63#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg3) main_call0.v5 main_call0.v13 (fun x i => Host.gather gather_S64x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    nary ![main_arg1, main_arg0, main_arg2, main_v0] main_v1 (fun u => Cert.Lib.cat4 S320000x768 1 S320000x256 S320000x256 S320000x128 S320000x128 concatenates_S320000x256_S320000x256_S320000x128_S320000x128_S320000x768_d1 (u 0) (u 1) (u 2) (u 3)),
    binary main_v1 main_arg5 main_v2 ((fun l r => Host.dotGeneral dot_S320000x768_S768x256_S320000x256_1_0_0_1_n_n none l r) : (⟨S320000x768, .f32⟩ : BufTy).Contents (Elt F) → (⟨S768x256, .f32⟩ : BufTy).Contents (Elt F) → (⟨S320000x256, .f32⟩ : BufTy).Contents (Elt F)),
    unary main_arg6 main_v3 (broadcastInDim S1x256 ![1] bcast_S256_S1x256_1 : (⟨S256, .f32⟩ : BufTy).Contents (Elt F) → (⟨S1x256, .f32⟩ : BufTy).Contents (Elt F)),
    unary main_v3 main_v4 (broadcastInDim S320000x256 ![0, 1] bcast_S1x256_S320000x256_0_1 : (⟨S1x256, .f32⟩ : BufTy).Contents (Elt F) → (⟨S320000x256, .f32⟩ : BufTy).Contents (Elt F)),
    binary main_v2 main_v4 main_v5 (addf : (⟨S320000x256, .f32⟩ : BufTy).Contents (Elt F) → (⟨S320000x256, .f32⟩ : BufTy).Contents (Elt F) → (⟨S320000x256, .f32⟩ : BufTy).Contents (Elt F)),
    TRef.nullary main_call1.cst (constant S_ .f32 0x00000000#32),
    TRef.unary main_call1.cst main_call1.v0 (broadcastInDim S320000x256 ![] bcast_S_S320000x256),
    TRef.binary (.of main_v5) main_call1.v0 main_call1.v1 maximumf ]

set_option maxRecDepth 1024 in
/-- The printed program is that line: the outlined functions unfolded at their calls, sequencing reassociated. -/
theorem main_eq (c : Dev nD) : main (F := F) c = seq ops := by
  simp only [main, fn_take.body, fn_where.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nary_bufs_sub .., binary_bufs_sub .., unary_bufs_sub .., unary_bufs_sub .., binary_bufs_sub ..,
    nullary_bufs_sub .., unary_bufs_sub .., binary_bufs_sub ..⟩

end Line

/-! ## The result as one term of the arguments -/

section Term
variable {F : FTy → Type} [FloatOps F]

/-- The index column: each index word, with 64 added where it reads negative, laid as a 320000 × 1 column. -/
def idxCol (batch : IVec S320000 32) : IVec S320000x1 32 :=
  broadcastInDim S320000x1 ![0] bcast_S320000_S320000x1_0
    (select (cmpi .slt batch (broadcastInDim S320000 ![] bcast_S_S320000 (constantI S_ 32 0#32)))
      (addi batch (broadcastInDim S320000 ![] bcast_S_S320000 (constantI S_ 32 64#32))) batch)

/-- Per edge, whether its index lies in [0, 63]: the two comparisons, their conjunction, folded over the unit axis. -/
def validRow (batch : IVec S320000 32) : IVec S320000 1 :=
  Host.reduce IntOp.andi
    (andi (cmpi .sge (idxCol batch) (broadcastInDim S320000x1 ![] bcast_S_S320000x1 (constantI S_ 32 0#32)))
      (cmpi .sle (idxCol batch)
        (broadcastInDim S320000x1 ![0, 1] bcast_S1x1_S320000x1_0_1 (broadcastInDim S1x1 ![1] bcast_S1_S1x1_1 (constantI S1 32 63#32)))))
    (constantI S_ 1 1#1) reducesTo_S320000x1_S320000_d1 h_S_

/-- The looked-up rows: row (index) of the table where the index is valid, the fill constant elsewhere. -/
def takeTerm (u : FVec F S64x128 .f32) (batch : IVec S320000 32) : FVec F S320000x128 .f32 :=
  select (broadcastInDim S320000x128 ![0] bcast_S320000_S320000x128_0 (validRow batch))
    (Host.gather gather_S64x128_S320000x1_S320000x128_1_0_n_n_0_1_1128 u (idxCol batch))
    (broadcastInDim S320000x128 ![] bcast_S_S320000x128 (constant S_ .f32 0x7FC00000#32))

/-- The whole reference: the four pieces side by side, contracted with the weights, the bias added, clamped at zero. -/
def refTerm (a0 a1 : FVec F S320000x256 .f32) (a2 : FVec F S320000x128 .f32) (a3 : FVec F S64x128 .f32)
    (a4 : IVec S320000 32) (a5 : FVec F S768x256 .f32) (a6 : FVec F S256 .f32) : FVec F S320000x256 .f32 :=
  maximumf
    (addf
      (Host.dotGeneral dot_S320000x768_S768x256_S320000x256_1_0_0_1_n_n none
        (Cert.Lib.cat4 S320000x768 1 S320000x256 S320000x256 S320000x128 S320000x128
          concatenates_S320000x256_S320000x256_S320000x128_S320000x128_S320000x768_d1 a1 a0 a2 (takeTerm a3 a4)) a5)
      (broadcastInDim S320000x256 ![0, 1] bcast_S1x256_S320000x256_0_1 (broadcastInDim S1x256 ![1] bcast_S256_S1x256_1 a6)))
    (broadcastInDim S320000x256 ![] bcast_S_S320000x256 (constant S_ .f32 0x00000000#32))

-- the two sides agree operation by operation; the reduction and the gather enter only through their operands, so each is
-- compared as a whole
attribute [local irreducible] Host.reduce Host.gather in
set_option maxRecDepth 8192 in
set_option maxHeartbeats 1000000 in
/-- What the line leaves in the result buffer: the composed term of what the argument buffers held. -/
theorem out_eq (V : Valuation τ sig (Elt F)) :
    after ops V (main_v6 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results
  rfl

/-! No operation of the line writes an argument buffer. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp
theorem arg5_eq (V : Valuation τ sig (Elt F)) :
    after ops V (main_arg5 : DevRef τ sig) = V (main_arg5 : DevRef τ sig) := by
  after_results_simp
theorem arg6_eq (V : Valuation τ sig (Elt F)) :
    after ops V (main_arg6 : DevRef τ sig) = V (main_arg6 : DevRef τ sig) := by
  after_results_simp

/-- On every device, from any memory with zero counters: every weakly fair execution ends with the result buffer at
    that term of the arguments' launch contents and the seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v6).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _)⟩)
    (run_seq scopedRefs_eq scopedSems_eq defs main (fun _ => ops) main_eq (fun _ => ops_sub) m ρ)

end Term

/-! ## The row lookup read at an index

Where every index word is below 64 the lookup's guards are decided: no word reads negative, so none is shifted; every
word lies in [0, 63], so every validity bit is set; and the clamp of the row index is the identity. What is left is row
(index word) of the table. -/

section Lookup

/-- A word below 64 does not read negative. -/
theorem slt_zero_of_lt (w : BitVec 32) (h : w.toNat < 64) : IntOp.cmpi .slt w 0#32 = 0#1 :=
  eq_zero_of_ne_one fun h1 =>
    absurd ((Predicate.slt_iff_toNat (a := w) (b := 0#32) (by omega) (by decide)).1 h1) (Nat.not_lt_zero _)

/-- A word below 64 is at least zero, read signed. -/
theorem sge_zero_of_lt (w : BitVec 32) (h : w.toNat < 64) : IntOp.cmpi .sge w 0#32 = 1#1 :=
  (Predicate.sge_iff_toNat (a := w) (b := 0#32) (by omega) (by decide)).2 (Nat.zero_le _)

/-- A word below 64 is at most 63, read signed. -/
theorem sle_63_of_lt (w : BitVec 32) (h : w.toNat < 64) : IntOp.cmpi .sle w 63#32 = 1#1 :=
  (Predicate.sle_iff_toNat (a := w) (b := 63#32) (by omega) (by decide)).2 (by show w.toNat ≤ 63; omega)

/-- A vector laid as a 320000 × 1 column reads, at row `e`, the vector at `e`. -/
theorem bcast_col_apply {α : Type} (v : S320000.Idx → α) (e : Fin 320000) (z : Fin 1) :
    broadcastInDim S320000x1 ![0] bcast_S320000_S320000x1_0 v (ix2 e z) = v (ix1 e) := by
  unfold broadcastInDim
  congr 1
  funext a
  match a with
  | ⟨0, _⟩ => rfl

variable (batch : IVec S320000 32) (hb : ∀ e : Fin 320000, (batch (ix1 e)).toNat < 64)

include hb in
/-- The index column at row `e` is the index word of edge `e`: the shift by 64 is not taken. -/
theorem idxCol_apply (e : Fin 320000) (z : Fin 1) : idxCol batch (ix2 e z) = batch (ix1 e) := by
  unfold idxCol
  rw [bcast_col_apply]
  show Scalar.select (IntOp.cmpi .slt (batch (ix1 e)) 0#32) _ (batch (ix1 e)) = _
  rw [slt_zero_of_lt _ (hb e), select_zero]

include hb in
/-- Every entry of the conjunction of the two range tests is set. -/
theorem inRange_apply (i : S320000x1.Idx) :
    andi (cmpi .sge (idxCol batch) (broadcastInDim S320000x1 ![] bcast_S_S320000x1 (constantI S_ 32 0#32)))
      (cmpi .sle (idxCol batch)
        (broadcastInDim S320000x1 ![0, 1] bcast_S1x1_S320000x1_0_1 (broadcastInDim S1x1 ![1] bcast_S1_S1x1_1 (constantI S1 32 63#32)))) i
      = 1#1 := by
  obtain ⟨e, z, rfl⟩ : ∃ (e : Fin 320000) (z : Fin 1), i = ix2 e z := ⟨i 0, i 1, eq_ix2 i⟩
  show IntOp.andi (IntOp.cmpi .sge (idxCol batch (ix2 e z)) 0#32) (IntOp.cmpi .sle (idxCol batch (ix2 e z)) 63#32) = 1#1
  rw [idxCol_apply batch hb, sge_zero_of_lt _ (hb e), sle_63_of_lt _ (hb e)]
  rfl

/-- A conjunction folded from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h1 : IntOp.andi 1#1 1#1 = 1#1 := by decide
    rw [List.foldl_cons, h a List.mem_cons_self, h1]
    exact foldl_andi_one f l fun n hn => h n (List.mem_cons_of_mem _ hn)

include hb in
/-- Every edge's validity bit is set. -/
theorem validRow_apply (j : S320000.Idx) : validRow batch j = 1#1 := by
  unfold validRow
  rw [Host.reduce_eq_foldl]
  exact foldl_andi_one _ _ fun i _ => inRange_apply batch hb i

/-- The table row a start-index word names: the word read signed, clamped into [0, 63]. -/
def rowOf (w : BitVec 32) : Fin 64 := ⟨min w.toInt.toNat 63, by omega⟩

/-- On a word below 64 the clamp is the identity. -/
theorem rowOf_of_lt (w : BitVec 32) (h : w.toNat < 64) : rowOf w = ⟨w.toNat % 64, Nat.mod_lt _ (by decide)⟩ := by
  refine Fin.ext ?_
  show min w.toInt.toNat 63 = w.toNat % 64
  rw [Predicate.toInt_eq_toNat_of_lt (by omega), Int.toNat_natCast]
  omega

/-- The gather at (e, k): the table at the row the start index of edge `e` names and column `k`. -/
theorem gather_apply {α : Type} (u : S64x128.Idx → α) (idx : IVec S320000x1 32) (e : Fin 320000) (k : Fin 128) :
    Host.gather gather_S64x128_S320000x1_S320000x128_1_0_n_n_0_1_1128 u idx (ix2 e k)
      = u (ix2 (rowOf (idx (ix2 e (0 : Fin 1)))) k) := by
  unfold Host.gather
  congr 1
  funext a
  refine Fin.ext ?_
  have hsi : gather_S64x128_S320000x1_S320000x128_1_0_n_n_0_1_1128.siIdx (ix2 e k)
      ⟨List.idxOf (0 : Fin 2) gather_S64x128_S320000x1_S320000x128_1_0_n_n_0_1_1128.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show gather_S64x128_S320000x1_S320000x128_1_0_n_n_0_1_1128.start (ix2 e k) idx 0
        + gather_S64x128_S320000x1_S320000x128_1_0_n_n_0_1_1128.batchCoord (ix2 e k) 0
        + gather_S64x128_S320000x1_S320000x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S64x128_S320000x1_S320000x128_1_0_n_n_0_1_1128.startIndexMap from
      List.mem_singleton.mpr rfl), hsi]
    rfl
  | ⟨1, _⟩ =>
    show gather_S64x128_S320000x1_S320000x128_1_0_n_n_0_1_1128.start (ix2 e k) idx 1
        + gather_S64x128_S320000x1_S320000x128_1_0_n_n_0_1_1128.batchCoord (ix2 e k) 1
        + gather_S64x128_S320000x1_S320000x128_1_0_n_n_0_1_1128.offCoord (ix2 e k) 1 = _
    rw [GatherDims.batchCoord_eq_zero _ _ _ List.not_mem_nil]
    unfold GatherDims.start
    rw [dif_neg (show ¬ (1 : Fin 2) ∈ gather_S64x128_S320000x1_S320000x128_1_0_n_n_0_1_1128.startIndexMap by decide)]
    unfold GatherDims.offCoord
    rw [dif_pos ((GatherDims.mem_sKept _ _).mpr ⟨by decide, List.not_mem_nil⟩)]
    simp only [Nat.zero_add]
    rfl

include hb in
/-- The looked-up row of edge `e` is the table's row (index word of `e`), column by column. -/
theorem takeTerm_apply (u : FVec Ideal S64x128 .f32) (e : Fin 320000) (k : Fin 128) :
    takeTerm u batch (ix2 e k) = u (ix2 (Cert.Spec.graphOf batch e) k) := by
  unfold takeTerm
  rw [select_apply]
  have hv : broadcastInDim S320000x128 ![0] bcast_S320000_S320000x128_0 (validRow batch) (ix2 e k) = 1#1 :=
    validRow_apply batch hb _
  rw [hv, select_one, gather_apply, idxCol_apply batch hb, rowOf_of_lt _ (hb e)]
  rfl

end Lookup

/-! ## The whole term read at an index -/

section Outer

/-- The bias laid over the rows reads, at (e, j), the bias at `j`. -/
theorem bias_apply {α : Type} (b : S256.Idx → α) (e : Fin 320000) (j : Fin 256) :
    broadcastInDim S320000x256 ![0, 1] bcast_S1x256_S320000x256_0_1 (broadcastInDim S1x256 ![1] bcast_S256_S1x256_1 b) (ix2 e j)
      = b (ix1 j) := by
  unfold broadcastInDim
  congr 1
  funext a
  match a with
  | ⟨0, _⟩ => rfl

/-- The clamp's constant, broadcast, is zero everywhere. -/
theorem zero_apply (i : S320000x256.Idx) :
    broadcastInDim S320000x256 ![] bcast_S_S320000x256 (constant (F := Ideal) S_ .f32 0x00000000#32) i = 0 :=
  Ideal.ofBits_zero_f32

/-- The reference's term at edge `e`, column `j`, where every index word is below 64, is the edge model's value there:
    the clamp at zero of the contraction of the concatenated row with the weights plus the bias, the row's last piece
    being the table's row (index word of `e`). -/
theorem refTerm_apply (a0 a1 : FVec Ideal S320000x256 .f32) (a2 : FVec Ideal S320000x128 .f32) (a3 : FVec Ideal S64x128 .f32)
    (a4 : IVec S320000 32) (a5 : FVec Ideal S768x256 .f32) (a6 : FVec Ideal S256 .f32)
    (hb : ∀ e : Fin 320000, (a4 (ix1 e)).toNat < 64) (e : Fin 320000) (j : Fin 256) :
    refTerm a0 a1 a2 a3 a4 a5 a6 (ix2 e j) = Cert.Spec.edgeOutAt a1 a0 a2 a3 a4 a5 a6 e j := by
  unfold refTerm
  rw [maximumf_apply, addf_apply, zero_apply, bias_apply,
    Cert.Lib.dotGeneral_rc_apply dot_S320000x768_S768x256_S320000x256_1_0_0_1_n_n rfl rfl rfl rfl rfl rfl]
  exact Cert.Spec.cat_dot_eq a1 a0 a2 (takeTerm a3 a4) a3 a4 a5 a6 _ e j fun k => takeTerm_apply a4 hb a3 e k

end Outer

/-- Where every index word is below 64, every weakly fair execution of the reference ends with its result array at
    the edge model's function of the arguments, and the arguments unchanged. -/
theorem run_spec (m : (ℓ : Loc nD τ sig) → Buf (Elt Ideal) ℓ) (ρ : Dev nD → PrngReg)
    (hb : ∀ (c : Dev nD) (e : Fin 320000), (m ((c.tc : Thread nD τ).loc main_arg4) (ix1 e)).toNat < 64) :
    θ_run (defs (F := Ideal)) (onTc (τ := τ) (main (F := Ideal))) ⟨m, fun _ => 0, ρ⟩ fun r => ∀ c : Dev nD,
      r.2.mem ((c.tc : Thread nD τ).loc main_v6)
          = Cert.Spec.edgeOut (m ((c.tc : Thread nD τ).loc main_arg1)) (m ((c.tc : Thread nD τ).loc main_arg0))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono
    (fun _ h c => ⟨(h c).1.trans (Cert.Spec.eq_edgeOut_of_at _ _ _ _ _ _ _ _ fun e j =>
        refTerm_apply _ _ _ _ _ _ _ (hb c) e j), (h c).2⟩)
    (run (F := Ideal) m ρ)

end Cert.ReferenceIdeal.RefValue

end
-- ==== Proof.PreFacts.lean ====
import proofs.«409750_j35012573397767_4_alg».proof.Proof.Gen.Pre_finite_inputs
import Idealize.ShloMosaic.Lib.StableHlo.Predicate
import Idealize.ShloMosaic.Lib.ReduceAll
import Idealize.ShloMosaic.Lib.ValueIdx

noncomputable section

namespace Cert.PreFacts

open Idealize.ShloMosaic Idealize.ShloMosaic.ValueIdx Cert.Pre_finite_inputs Cert.Pre_finite_inputs.Gen

/-- The scalar shape has exactly one index: there is no axis to give a coordinate for. -/
instance : Subsingleton S_.Idx := ⟨fun a b => funext fun d => d.elim0⟩

/-- A 32-bit word that, read as a signed number, is at least 0 and less than 64 is below 64 read unsigned: signed
    non-negativity rules out the upper half of the unsigned range (there the signed reading is the unsigned one
    minus 2³², a negative number), and on the lower half the two readings agree. -/
theorem toNat_lt_of_signed_range (w : BitVec 32) (hge : IntOp.cmpi .sge w 0#32 = 1#1)
    (hlt : IntOp.cmpi .slt w 64#32 = 1#1) : w.toNat < 64 := by
  have z0 : (0#32 : BitVec 32).toInt = 0 := by decide
  have z64 : (64#32 : BitVec 32).toInt = 64 := by decide
  have hw := BitVec.toInt_eq_toNat_cond w
  unfold IntOp.cmpi at hge hlt
  rw [StableHlo.Predicate.ofBool_eq_one_iff] at hge hlt
  simp only [BitVec.sle, BitVec.slt, decide_eq_true_eq, z0, z64] at hge hlt
  split at hw <;> omega

/-- Where the printed precondition is all ones, every index word, read unsigned, is below 64: its last two conjuncts
    say each word is at least 0 and less than 64 as a signed number. -/
theorem batch_lt (a0 a1 : FVec Ideal S320000x256 .f32) (a2 : FVec Ideal S320000x128 .f32) (a3 : FVec Ideal S64x128 .f32)
    (a4 : IVec S320000 32) (a5 : FVec Ideal S768x256 .f32) (a6 : FVec Ideal S256 .f32)
    (h : Cert.Pre_finite_inputs.fn (F := Ideal) a0 a1 a2 a3 a4 a5 a6 = fun _ => 1#1) (e : Fin 320000) :
    (a4 (ix1 e)).toNat < 64 := by
  -- the precondition at its one index: a conjunction of eight one-bit words, nested to the left
  have hall := congrFun h ix0
  dsimp only [fn, fn_part1, fn_part2] at hall
  -- the last conjunct is the "every word < 64" reduction, the one before it the "every word ≥ 0" reduction
  obtain ⟨hrest, hred64⟩ := IntOp.andi_eq_one.1 hall
  obtain ⟨-, hred0⟩ := IntOp.andi_eq_one.1 hrest
  -- a reduction by "and" over all entries that came out 1 met a 1 at every entry, entry e among them
  have hlt := Host.reduce_andi_all _ _ _ _ _ hred64 (ix1 e)
  have hge := Host.reduce_andi_all _ _ _ _ _ hred0 (ix1 e)
  -- at entry e the compared array is a4 and the other operand is the broadcast constant
  exact toNat_lt_of_signed_range (a4 (ix1 e)) hge hlt

end Cert.PreFacts

end
-- ==== Proof.lean ====
/-
  The edge model: out = relu ([dest, src, edge_attr, u[batch]] · W + b) over 320000 edges, 768 input and 256 output
  features, `batch` sending each edge to one of 64 graphs.

  The reference gathers row `batch e` of `u`, concatenates the four pieces into a 768-wide row and contracts it with
  `W` at once. The kernel program splits `W` into its four row bands: on the host it folds the last band and the bias
  into a 64-row table `u · W[640:768] + b`; on each block of 6400 edges it adds the three products of dest, src and
  edge_attr with their bands and then the table's row `batch e`, selected as the sum over the 64 graphs of the
  indicator of `batch e = g` times row `g`. On the extended reals both are the function `Cert.Spec.edgeOut`: a sum over
  768 columns is the sum of its four bands' sums, and an indicator sum with exactly one non-zero term is that term
  (0 · x = 0 and 1 · x = x hold at the infinities too, so no finiteness is used).

  The selection needs `batch e` to be one of the 64 graphs: outside that range the indicator sum is empty (the kernel
  drops the table's row, bias included) while the reference's gather wraps a negative index or fills the row with NaN.
  The precondition therefore says, beside finiteness of the float inputs, `0 ≤ batch < 64`.
-/
import proofs.«409750_j35012573397767_4_alg».proof.Defs
import proofs.«409750_j35012573397767_4_alg».proof.Proof.Gen.Kernel.Frame
import proofs.«409750_j35012573397767_4_alg».proof.Proof.Gen.KernelIdeal.Frame
import proofs.«409750_j35012573397767_4_alg».proof.Proof.Gen.Pre_finite_inputs
import proofs.«409750_j35012573397767_4_alg».proof.Proof.KernelArray
import proofs.«409750_j35012573397767_4_alg».proof.Proof.RefValue
import proofs.«409750_j35012573397767_4_alg».proof.Proof.PreFacts

noncomputable section

namespace Cert.Proof

open Idealize.ShloMosaic Idealize.SL.Sem Idealize.ShloMosaic.ValueIdx

/-- The three frames. The reference's is its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ hpre =>
  (θ_run Cert.ReferenceIdeal.defs _ _).mono (fun _ h c => (h c).2)
    (Cert.ReferenceIdeal.RefValue.run_spec m ρ fun c e => Cert.PreFacts.batch_lt _ _ _ _ _ _ _ (hpre c) e)

/-- Both idealized programs end at the edge model's function of arguments that agree. -/
theorem algebraic : Cert.algebraic_KernelIdeal_ReferenceIdeal := by
  intro m ρ m' ρ' hpre hagree
  have hb : ∀ (c : Dev Cert.KernelIdeal.nD) (e : Fin 320000),
      (m ((c.tc : Thread Cert.KernelIdeal.nD Cert.KernelIdeal.τ).loc Cert.KernelIdeal.main_arg4) (ix1 e)).toNat < 64 :=
    fun c e => Cert.PreFacts.batch_lt _ _ _ _ _ _ _ (hpre c) e
  have hb' : ∀ (c : Dev Cert.ReferenceIdeal.nD) (e : Fin 320000),
      (m' ((c.tc : Thread Cert.ReferenceIdeal.nD Cert.ReferenceIdeal.τ).loc Cert.ReferenceIdeal.main_arg4) (ix1 e)).toNat < 64 :=
    fun c e => by rw [(hagree c).2.2.2.2.1]; exact hb c e
  refine ⟨_, Cert.KernelIdeal.KernelArray.run_spec m ρ hb, ?_⟩
  refine (θ_run Cert.ReferenceIdeal.defs _ _).mono (fun _ h c => ⟨(h c).1.trans ?_, (h c).2⟩)
    (Cert.ReferenceIdeal.RefValue.run_spec m' ρ' hb')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
